-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x64x2 : Shape := ⟨3, ![8192, 64, 2]⟩
abbrev S8192x2x64 : Shape := ⟨3, ![8192, 2, 64]⟩
abbrev S16x128 : Shape := ⟨2, ![16, 128]⟩
abbrev S128x128 : Shape := ⟨2, ![128, 128]⟩
abbrev S8x128 : Shape := ⟨2, ![8, 128]⟩
abbrev S1x1 : Shape := ⟨2, ![1, 1]⟩
abbrev S128x64 : Shape := ⟨2, ![128, 64]⟩
abbrev S128x64x1 : Shape := ⟨3, ![128, 64, 1]⟩
abbrev S128x64x64 : Shape := ⟨3, ![128, 64, 64]⟩
abbrev S128x64x128 : Shape := ⟨3, ![128, 64, 128]⟩
abbrev S128x1x128 : Shape := ⟨3, ![128, 1, 128]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x64x2, .f32⟩
  | .hbm, ⟨3, _⟩ => ⟨S8192x2x64, .f32⟩
  | .hbm, ⟨4, _⟩ => ⟨S8192x128, .f32⟩
  | .hbm, ⟨5, _⟩ => ⟨S8192x64x2, .f32⟩
  | .hbm, ⟨6, _⟩ => ⟨S8192x2x64, .f32⟩
  | .hbm, ⟨7, _⟩ => ⟨S8192x128, .f32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v47 : BitVec 1 := Scalar.cmpi .eq arg1 c31_i32
  let v48 : BitVec 32 := Scalar.extui v47
  let c0_i32_17 : BitVec 32 := 0#32
  let v49 : BitVec 1 := Scalar.cmpi .ne v48 c0_i32_17
  v49

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192x128_S8192x64x2 : S8192x128.ShapeCasts S8192x64x2
  transposes_S8192x64x2_S8192x2x64_0_2_1 : S8192x64x2.Transposes [0, 2, 1] S8192x2x64
  shapeCasts_S8192x2x64_S8192x128 : S8192x2x64.ShapeCasts S8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S128x128_o0_0_S128x64 : S128x128.Slices ![0, 0] S128x64
  slices_S128x128_o0_64_S128x64 : S128x128.Slices ![0, 64] S128x64
  shapeCasts_S128x64_S128x64x1 : S128x64.ShapeCasts S128x64x1
  shapeCasts_S128x64x1_S128x64x1 : S128x64x1.ShapeCasts S128x64x1
  broadcasts_S128x64x1_S128x64x64 : S128x64x1.Broadcasts S128x64x64
  concatenates_S128x64x64_S128x64x64_S128x64x128_d2 : Shape.Concatenates [S128x64x64, S128x64x64] S128x64x128 2
  shapeCasts_S128x128_S128x1x128 : S128x128.ShapeCasts S128x1x128
  shapeCasts_S128x1x128_S128x1x128 : S128x1x128.ShapeCasts S128x1x128
  broadcasts_S128x1x128_S128x64x128 : S128x1x128.Broadcasts S128x64x128
  reduces_S128x64x128_S128x128 : S128x64x128.Reduces [1] S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  slices_S128x64x128_o0_0_0_S128x64x64 : S128x64x128.Slices ![0, 0, 0] S128x64x64
  reduces_S128x64x64_S128x64 : S128x64x64.Reduces [2] S128x64
  slices_S128x64x128_o0_0_64_S128x64x64 : S128x64x128.Slices ![0, 0, 64] S128x64x64
  reduces_S128x64_S128 : S128x64.Reduces [1] S128
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x128.size a
  hwx0_1 : ∀ i : grid0.Coords, EltTy.bits .f32 = 32 ∨ (Rect.block (s := S8192x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v2) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x64x2 : Shape := ⟨3, ![8192, 64, 2]⟩
abbrev S8192x64x1x2 : Shape := ⟨4, ![8192, 64, 1, 2]⟩
abbrev S8192x1x64x2 : Shape := ⟨4, ![8192, 1, 64, 2]⟩
abbrev S8192x64x64x2 : Shape := ⟨4, ![8192, 64, 64, 2]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x64x2, .f32⟩
  | .hbm, ⟨3, _⟩ => ⟨S8192x64x2, .f32⟩
  | .hbm, ⟨4, _⟩ => ⟨S8192x64x1x2, .f32⟩
  | .hbm, ⟨5, _⟩ => ⟨S8192x1x64x2, .f32⟩
  | .hbm, ⟨6, _⟩ => ⟨S8192x64x64x2, .f32⟩
  | .hbm, ⟨7, _⟩ => ⟨S8192x64x64x2, .f32⟩
  | .hbm, ⟨8, _⟩ => ⟨S8192x64x64x2, .f32⟩
  | .hbm, ⟨9, _⟩ => ⟨S8192x64x64x2, .f32⟩
  | .hbm, ⟨10, _⟩ => ⟨S_, .f32⟩
  | .hbm, ⟨11, _⟩ => ⟨S8192x64x2, .f32⟩
  | .hbm, ⟨12, _⟩ => ⟨S_, .f32⟩
  | .hbm, ⟨13, _⟩ => ⟨S8192x64x2, .f32⟩
  | .hbm, ⟨14, _⟩ => ⟨S8192x64x2, .f32⟩
  | .hbm, ⟨15, _⟩ => ⟨S_, .f32⟩
  | .hbm, ⟨16, _⟩ => ⟨S8192x64x2, .f32⟩
  | .hbm, ⟨17, _⟩ => ⟨S8192x64x2, .f32⟩
  | .hbm, ⟨18, _⟩ => ⟨S8192x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  shapeCasts_S8192x128_S8192x64x2 : S8192x128.ShapeCasts S8192x64x2
  bcast_S8192x64x2_S8192x64x1x2_0_1_3 : S8192x64x2.BroadcastsInDim S8192x64x1x2 (![0, 1, 3] : Fin 3 → Fin S8192x64x1x2.rank)
  bcast_S8192x64x2_S8192x1x64x2_0_2_3 : S8192x64x2.BroadcastsInDim S8192x1x64x2 (![0, 2, 3] : Fin 3 → Fin S8192x1x64x2.rank)
  bcast_S8192x64x1x2_S8192x64x64x2_0_1_2_3 : S8192x64x1x2.BroadcastsInDim S8192x64x64x2 (![0, 1, 2, 3] : Fin 4 → Fin S8192x64x64x2.rank)
  bcast_S8192x1x64x2_S8192x64x64x2_0_1_2_3 : S8192x1x64x2.BroadcastsInDim S8192x64x64x2 (![0, 1, 2, 3] : Fin 4 → Fin S8192x64x64x2.rank)
  reducesTo_S8192x64x64x2_S8192x64x2_d2 : S8192x64x64x2.ReducesTo [2] S8192x64x2
  h_S_ : 0 < S_.numel
  reducesTo_S8192x64x64x2_S8192x64x2_d1 : S8192x64x64x2.ReducesTo [1] S8192x64x2
  bcast_S_S8192x64x2 : S_.BroadcastsInDim S8192x64x2 (![] : Fin 0 → Fin S8192x64x2.rank)
  shapeCasts_S8192x64x2_S8192x128 : S8192x64x2.ShapeCasts S8192x128
  reducesTo_S8192x128_S_d0_1 : S8192x128.ReducesTo [0, 1] S_

variable [Facts₀]

class Facts : Prop extends Facts₀ where

variable [Facts]
-- ==== Proof.Spec.lean ====
/-
  The two programs as one formula each, over the two argument arrays read as
  functions `Fin 8192 → Fin 128 → EReal` (row, column).

  A row holds 64 points of two coordinates, interleaved: column `2 i + c` is coordinate `c` of
  point `i`.  For a row `n`, a point `i` of the first array and a coordinate `c`,
  `dOne n i c` is the least distance `|p i c − t j c|` over the points `j` of the second array,
  and `dTwo n j c` the least such distance over the points `i` of the first.  The reference
  averages `(dOne + dTwo) / 2` over every row, point and coordinate and divides by 64.

  The kernel first regroups each row so that columns `0 … 63` hold coordinate 0 and columns
  `64 … 127` coordinate 1 (`dense`), cuts the rows into 64 blocks of 128, and adds up per block
  half the sum of the three families of minima (`blockPartial`); the first 32 blocks accumulate
  into one number, the last 32 into another, each number fills 8 × 128 entries of the result
  array, and the host sums that array, divides by 1024 and by 2^26.
-/
import Idealize.ShloMosaic.PureOps.Ideal
import Idealize.ShloMosaic.Lib.ValueIdx

noncomputable section

namespace Cert.L1Order

open Idealize.ShloMosaic
open scoped BigOperators

/-- An array of 8192 rows and 128 columns of extended reals. -/
abbrev Arr := Fin 8192 → Fin 128 → EReal
/-- A block of 128 rows and 128 columns. -/
abbrev Blk := Fin 128 → Fin 128 → EReal

/-- A program's 8192 × 128 array of extended reals as a function of row and column. -/
def arrFn (x : (⟨2, ![8192, 128]⟩ : Shape).Idx → EReal) : Arr := fun n l => x (ValueIdx.ix2 n l)
/-- A 128 × 128 vector of extended reals as a function of row and column. -/
def blkFn (x : (⟨2, ![128, 128]⟩ : Shape).Idx → EReal) : Blk := fun r l => x (ValueIdx.ix2 r l)

/-! ## The float words both programs spell -/

/-- `+∞`, from which every minimum starts. -/
def infW : EReal := Ideal.ofBits .f32 0x7F800000#32
/-- One half. -/
def halfW : EReal := Ideal.ofBits .f32 0x3F000000#32
/-- Zero, from which the host's sums start. -/
def zeroW : EReal := Ideal.ofBits .f32 0x00000000#32
/-- One (the loss weight). -/
def oneW : EReal := Ideal.ofBits .f32 0x3F800000#32
/-- 1024 = 8 · 128, the entries one accumulator fills. -/
def w1024 : EReal := Ideal.ofBits .f32 0x44800000#32
/-- 2^26 = 8192 · 128 · 64. -/
def w2p26 : EReal := Ideal.ofBits .f32 0x4C800000#32
/-- 2^20 = 8192 · 128. -/
def w2p20 : EReal := Ideal.ofBits .f32 0x49800000#32
/-- 64, the points of a row. -/
def w64 : EReal := Ideal.ofBits .f32 0x42800000#32

/-! ## Distances and minima -/

/-- `|a − b|` on the extended reals, spelled as the larger of the difference and its negative. -/
def ad (a b : EReal) : EReal := max (a - b) (-(a - b))

/-- The least of 64 values, started from `+∞`. -/
def fmin (f : Fin 64 → EReal) : EReal := (Finset.univ : Finset (Fin 64)).fold min infW f

/-! ## Columns -/

/-- Interleaved layout: the column of coordinate `c` of point `i`. -/
def il (i : Fin 64) (c : Fin 2) : Fin 128 := ⟨2 * i.val + c.val, by omega⟩
/-- Dense layout: the column of coordinate 0 of point `k`. -/
def lo (k : Fin 64) : Fin 128 := ⟨k.val, by omega⟩
/-- Dense layout: the column of coordinate 1 of point `k`. -/
def hi (k : Fin 64) : Fin 128 := ⟨64 + k.val, by omega⟩
/-- Dense layout: point `i`'s column in the half (the coordinate) that column `l` lies in. -/
def sameHalf (l : Fin 128) (i : Fin 64) : Fin 128 := if l.val < 64 then lo i else hi i

/-- The dense regrouping of a row: column `64 c + k` holds the interleaved column `2 k + c`. -/
def dense (A : Arr) : Arr := fun n l => A n ⟨2 * (l.val % 64) + l.val / 64, by omega⟩

/-- Block `t` of an array: rows `128 t … 128 t + 127`. -/
def blkOf (A : Arr) (t : Fin 64) : Blk := fun r l => A ⟨128 * t.val + r.val, by omega⟩ l

/-! ## The kernel's value -/

/-- What one grid point adds to its accumulator, from its two dense blocks: half of
    (the minima over the second array's points, coordinate 0 then coordinate 1, summed over
    rows and points) plus (the minima over the first array's points, summed over rows and
    columns). -/
def blockPartial (x0 x1 : Blk) : EReal :=
  halfW * (((∑ r : Fin 128, ∑ i : Fin 64, fmin fun j => ad (x0 r (lo i)) (x1 r (lo j)))
            + (∑ r : Fin 128, ∑ i : Fin 64, fmin fun j => ad (x0 r (hi i)) (x1 r (hi j))))
           + ∑ r : Fin 128, ∑ l : Fin 128, fmin fun i => ad (x0 r (sameHalf l i)) (x1 r l))

/-- Grid point `t`'s contribution. -/
def bp (P T : Arr) (t : Fin 64) : EReal := blockPartial (blkOf (dense P) t) (blkOf (dense T) t)

/-- The accumulator of half `c` of the grid after its 32 points. -/
def accOf (P T : Arr) (c : Fin 2) : EReal := ∑ s : Fin 32, bp P T ⟨32 * c.val + s.val, by omega⟩

/-- The kernel's result: the 16 × 128 array whose row `r` holds accumulator `r / 8` in every
    column, summed from zero, divided by 1024, times one, divided by 2^26. -/
def kernelVal (P T : Arr) : EReal :=
  Ideal.div (oneW * Ideal.div (zeroW + ∑ r : Fin 16, ∑ _l : Fin 128, accOf P T ⟨r.val / 8, by omega⟩) w1024) w2p26

/-! ## The reference's value -/

/-- Least distance from point `i` of the first array, coordinate `c`, to the second array's points. -/
def dOne (P T : Arr) (n : Fin 8192) (i : Fin 64) (c : Fin 2) : EReal :=
  fmin fun j => ad (P n (il i c)) (T n (il j c))
/-- Least distance from point `j` of the second array, coordinate `c`, to the first array's points. -/
def dTwo (P T : Arr) (n : Fin 8192) (j : Fin 64) (c : Fin 2) : EReal :=
  fmin fun i => ad (P n (il i c)) (T n (il j c))

/-- The reference's result: `(dOne + dTwo) · ½` at every row and interleaved column, summed
    from zero, divided by 2^20, times one, divided by 64. -/
def refVal (P T : Arr) : EReal :=
  Ideal.div (oneW * Ideal.div (zeroW + ∑ n : Fin 8192, ∑ q : Fin 128,
      (dOne P T n ⟨q.val / 2, by omega⟩ ⟨q.val % 2, by omega⟩
        + dTwo P T n ⟨q.val / 2, by omega⟩ ⟨q.val % 2, by omega⟩) * halfW) w2p20) w64

end Cert.L1Order

end
-- ==== Proof.Payload.lean ====
/-
  One grid point's arithmetic, read at its single entry.

  The body keeps a 1 × 1 accumulator.  From the two 128 × 128 blocks it loads it forms every
  distance `|p − t|` of a row's points, takes the three families of minima, sums them, halves
  the total and adds it to the accumulator; at the last point of a half of the grid it spreads
  the accumulator over an 8 × 128 block.

  The blocks are dense: columns `0 … 63` hold coordinate 0 of a row's 64 points, columns
  `64 … 127` coordinate 1.  The body lays the first block's two halves side by side along a new
  last axis, so that entry `(r, i, l)` of the 128 × 64 × 128 array of distances compares point `i`
  of the first block with column `l` of the second in the coordinate that `l` lies in:
  `|x0 r (sameHalf l i) − x1 r l|`.  The minimum over `i` is the least distance to the first
  block's points; the minimum over the 64 columns of one half is the least distance to the
  second block's points, one half per coordinate.  Every sum is read as a sum over the
  coordinates of the axis it removes, every minimum as the fold of `min` from `+∞` over them.
-/
import proofs.«428503_j64733747085527_3_alg».proof.Proof.Gen.KernelIdeal.Skeleton
import proofs.«428503_j64733747085527_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.L1Order

open Idealize.ShloMosaic Idealize.ShloMosaic.ValueIdx
open Cert.KernelIdeal Cert.KernelIdeal.Gen
open scoped BigOperators

namespace Payload

/-! ## Reductions over one axis, read at an index -/

/-- A minimum over one axis, at the extended reals: the fold of `min`, from the value of the
    accumulator's word, over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the columns of an `[a, b]` array, at row `r`. -/
theorem sum_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ l : Fin b, src (ix2 r l) := by
  refine (Ideal.multiReduction_add_single src _ h hφ hacc (ix1 r)).trans ?_
  exact Finset.sum_congr rfl fun l _ => congrArg src
    (funext fun c => Fin.ext (by match c with | ⟨0, _⟩ => rfl | ⟨1, _⟩ => rfl))

/-- The sum over the rows of an `[a, 1]` column, at its one entry. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ r : Fin a, src (ix2 r (0 : Fin 1)) := by
  refine (Ideal.multiReduction_add_single src _ h hφ hacc (ix1 u)).trans ?_
  exact Finset.sum_congr rfl fun r _ => congrArg src
    (funext fun c => Fin.ext (by
      match c with
      | ⟨0, _⟩ => rfl
      | ⟨1, _⟩ => show u.val = 0; omega))

/-- The minimum over the middle axis of an `[a, 64, c]` array, at `(r, l)`: the least of the 64 entries
    `(r, i, l)`. -/
theorem min_mid_apply {a c : ℕ} (src : FVec Ideal ⟨3, ![a, 64, c]⟩ .f32)
    (h : (⟨3, ![a, 64, c]⟩ : Shape).Reduces [1] ⟨2, ![a, c]⟩) (hφ : FKind.Formats .f32)
    (hacc : (0x7F800000#32 : BitVec 32) = FKind.minimumf.neutral .f32 hφ) (r : Fin a) (l : Fin c) :
    multiReduction .minimumf [1] ⟨2, ![a, c]⟩ src 0x7F800000#32 h hφ hacc (ix2 r l)
      = fmin fun i => src (ix3 r i l) := by
  refine (multiReduction_minimumf_single src _ h hφ hacc (ix2 r l)).trans ?_
  show (Finset.univ : Finset (Fin 64)).fold min infW _ = (Finset.univ : Finset (Fin 64)).fold min infW _
  refine congrArg (fun f => (Finset.univ : Finset (Fin 64)).fold min infW f) (funext fun i => congrArg src ?_)
  exact funext fun d => Fin.ext (by match d with | ⟨0, _⟩ => rfl | ⟨1, _⟩ => rfl | ⟨2, _⟩ => rfl)

/-- The minimum over the last axis of an `[a, b, 64]` array, at `(r, i)`: the least of the 64 entries
    `(r, i, j)`. -/
theorem min_last_apply {a b : ℕ} (src : FVec Ideal ⟨3, ![a, b, 64]⟩ .f32)
    (h : (⟨3, ![a, b, 64]⟩ : Shape).Reduces [2] ⟨2, ![a, b]⟩) (hφ : FKind.Formats .f32)
    (hacc : (0x7F800000#32 : BitVec 32) = FKind.minimumf.neutral .f32 hφ) (r : Fin a) (i : Fin b) :
    multiReduction .minimumf [2] ⟨2, ![a, b]⟩ src 0x7F800000#32 h hφ hacc (ix2 r i)
      = fmin fun j => src (ix3 r i j) := by
  refine (multiReduction_minimumf_single src _ h hφ hacc (ix2 r i)).trans ?_
  show (Finset.univ : Finset (Fin 64)).fold min infW _ = (Finset.univ : Finset (Fin 64)).fold min infW _
  refine congrArg (fun f => (Finset.univ : Finset (Fin 64)).fold min infW f) (funext fun j => congrArg src ?_)
  exact funext fun d => Fin.ext (by match d with | ⟨0, _⟩ => rfl | ⟨1, _⟩ => rfl | ⟨2, _⟩ => rfl)

/-! ## Layout operations at an index given by coordinates -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- A `[128, 64, 1]` array spread along its unit axis to `[128, 64, 64]` reads, at `(r, i, j)`, the operand at
    `(r, i, 0)`. -/
theorem broadcastTo_last_apply (x : (⟨3, ![128, 64, 1]⟩ : Shape).Idx → α)
    (h : (⟨3, ![128, 64, 1]⟩ : Shape).Broadcasts ⟨3, ![128, 64, 64]⟩) (r : Fin 128) (i : Fin 64) (j : Fin 64) :
    broadcastTo ⟨3, ![128, 64, 64]⟩ x h (ix3 r i j) = x (ix3 r i (0 : Fin 1)) :=
  broadcastTo_apply x h (ix3 r i j) (ix3 r i (0 : Fin 1)) fun ax => by
    match ax with
    | ⟨0, _⟩ => rfl
    | ⟨1, _⟩ => rfl
    | ⟨2, _⟩ => rfl

/-- A `[128, 1, 128]` array spread along its unit axis to `[128, 64, 128]` reads, at `(r, i, l)`, the operand at
    `(r, 0, l)`. -/
theorem broadcastTo_mid_apply (x : (⟨3, ![128, 1, 128]⟩ : Shape).Idx → α)
    (h : (⟨3, ![128, 1, 128]⟩ : Shape).Broadcasts ⟨3, ![128, 64, 128]⟩) (r : Fin 128) (i : Fin 64) (l : Fin 128) :
    broadcastTo ⟨3, ![128, 64, 128]⟩ x h (ix3 r i l) = x (ix3 r (0 : Fin 1) l) :=
  broadcastTo_apply x h (ix3 r i l) (ix3 r (0 : Fin 1) l) fun ax => by
    match ax with
    | ⟨0, _⟩ => rfl
    | ⟨1, _⟩ => rfl
    | ⟨2, _⟩ => rfl

/-- A `[1, 1]` array spread to `[8, 128]` reads its one entry everywhere. -/
theorem broadcastTo_11_apply (x : (⟨2, ![1, 1]⟩ : Shape).Idx → α)
    (h : (⟨2, ![1, 1]⟩ : Shape).Broadcasts ⟨2, ![8, 128]⟩) (p : Fin 8) (c : Fin 128) :
    broadcastTo ⟨2, ![8, 128]⟩ x h (ix2 p c) = x (ix2 (0 : Fin 1) (0 : Fin 1)) :=
  broadcastTo_apply x h (ix2 p c) (ix2 (0 : Fin 1) (0 : Fin 1)) fun ax => by
    match ax with
    | ⟨0, _⟩ => rfl
    | ⟨1, _⟩ => rfl

/-- A rank-3 array cut along its last axis from `o` reads, at `(a, b, j)`, the source at `(a, b, k)` with
    `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Layout

/-! ## Small facts -/

/-- The 1 × 1 shape has the one index `(0, 0)`. -/
theorem idx11_eq (y : S1x1.Idx) : y = ix2 (0 : Fin 1) (0 : Fin 1) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)

/-- The absolute value of a difference, at an index, is the distance of the two entries. -/
theorem absf_subf_apply {s : Shape} (a b : FVec Ideal s .f32) (i : s.Idx) : absf (subf a b) i = ad (a i) (b i) := rfl

/-- A column of the first half stays in the first half … -/
theorem sameHalf_lo (j i : Fin 64) : sameHalf (lo j) i = lo i := if_pos (show (lo j).val < 64 from j.isLt)
/-- … and one of the second half in the second. -/
theorem sameHalf_hi (j i : Fin 64) : sameHalf (hi j) i = hi i :=
  if_neg (show ¬ (hi j).val < 64 from Nat.not_lt.2 (Nat.le_add_right 64 j.val))

/-- The body's word for one half is the specification's. -/
theorem half_word : (Scalar.ofBits .f32 0x3F000000#32 : Ideal .f32) = halfW := rfl

/-- A sum of two equal pairs. -/
theorem add_pair {a a' b b' : EReal} (ha : a = a') (hb : b = b') : a + b = a' + b' := by rw [ha, hb]

/-! ## The distances -/

/-- Entry `(r, i, l)` of the array of distances: point `i` of the first block against column `l` of the second, in
    the coordinate `l` lies in. -/
theorem dist_apply (x0 x1 : Vec Ideal S128x128 .f32) (r : Fin 128) (i : Fin 64) (l : Fin 128) :
    k0_pay4 (F := Ideal) x0 x1 (ix3 r i l) = ad (x0 (ix2 r (sameHalf l i))) (x1 (ix2 r l)) := by
  unfold k0_pay4
  refine (absf_subf_apply _ _ _).trans ?_
  refine congrArg₂ ad ?_ ?_
  · -- the first block's two halves, side by side along the last axis
    by_cases hl : l.val < 64
    · rw [show sameHalf l i = lo i from if_pos hl]
      refine (concatenate_pair_apply_left (t := S128x64x128) (s₁ := S128x64x64) (s₂ := S128x64x64) 2 _ _ _
        (ix3 r i l) rfl (ix3 r i (⟨l.val, hl⟩ : Fin 64)) (fun b => by
          match b with
          | ⟨0, _⟩ => rfl
          | ⟨1, _⟩ => rfl
          | ⟨2, _⟩ => rfl)).trans ?_
      refine (broadcastTo_last_apply _ _ r i _).trans ?_
      refine (congrFun (shapeCast_self _ _) _).trans ?_
      refine (shapeCast_ab_ab1_apply _ _ r i 0).trans ?_
      refine (slice2_axis1_apply 0 _ _ r i (lo i) (by show i.val = 0 + i.val; omega)).trans ?_
      exact congrFun (shapeCast_self _ _) _
    · rw [show sameHalf l i = hi i from if_neg hl]
      refine (concatenate_pair_apply_right (t := S128x64x128) (s₁ := S128x64x64) (s₂ := S128x64x64) 2 _ _ _
        (ix3 r i l) rfl rfl (ix3 r i (⟨l.val - 64, by have := l.isLt; omega⟩ : Fin 64)) (fun b hb => by
          match b with
          | ⟨0, _⟩ => rfl
          | ⟨1, _⟩ => rfl
          | ⟨2, _⟩ => exact absurd (Fin.ext rfl) hb) (by show (l.val - 64) + 64 = l.val; omega)).trans ?_
      refine (broadcastTo_last_apply _ _ r i _).trans ?_
      refine (congrFun (shapeCast_self _ _) _).trans ?_
      refine (shapeCast_ab_ab1_apply _ _ r i 0).trans ?_
      refine (slice2_axis1_apply 64 _ _ r i (hi i) (by show 64 + i.val = 64 + i.val; rfl)).trans ?_
      exact congrFun (shapeCast_self _ _) _
  · -- the second block's row, the same for every point of the first
    refine (broadcastTo_mid_apply _ _ r i l).trans ?_
    refine (congrFun (shapeCast_self _ _) _).trans ?_
    refine (shapeCast_ab_a1b_apply _ _ r 0 l).trans ?_
    exact congrFun (shapeCast_self _ _) _

/-! ## The three families of minima, summed -/

/-- The minima over the first block's points, summed over rows and columns. -/
theorem overFirst_apply (x0 x1 : Vec Ideal S128x128 .f32) :
    k0_pay5 (F := Ideal) x0 x1 (ix2 0 0)
      = ∑ r : Fin 128, ∑ l : Fin 128, fmin fun i => ad (blkFn x0 r (sameHalf l i)) (blkFn x1 r l) := by
  unfold k0_pay5
  refine (shapeCast_a_1a_apply _ _ 0 0).trans ?_
  refine (sum_rows_apply _ _ _ _ 0).trans ?_
  refine Finset.sum_congr rfl fun r _ => ?_
  refine (shapeCast_a_a1_apply _ _ r 0).trans ?_
  refine (sum_cols_apply _ _ _ _ r).trans ?_
  refine Finset.sum_congr rfl fun l _ => ?_
  refine (min_mid_apply _ _ _ _ r l).trans ?_
  exact congrArg fmin (funext fun i => dist_apply x0 x1 r i l)

/-- The minima over the second block's points, coordinate 0 then coordinate 1, each summed over rows and
    points. -/
theorem overSecond_apply (x0 x1 : Vec Ideal S128x128 .f32) :
    k0_pay6 (F := Ideal) x0 x1 (ix2 0 0)
      = (∑ r : Fin 128, ∑ i : Fin 64, fmin fun j => ad (blkFn x0 r (lo i)) (blkFn x1 r (lo j)))
        + ∑ r : Fin 128, ∑ i : Fin 64, fmin fun j => ad (blkFn x0 r (hi i)) (blkFn x1 r (hi j)) := by
  unfold k0_pay6
  refine (addf_apply _ _ _).trans ?_
  refine add_pair ?_ ?_
  · refine (shapeCast_a_1a_apply _ _ 0 0).trans ?_
    refine (sum_rows_apply _ _ _ _ 0).trans ?_
    refine Finset.sum_congr rfl fun r _ => ?_
    refine (shapeCast_a_a1_apply _ _ r 0).trans ?_
    refine (sum_cols_apply _ _ _ _ r).trans ?_
    refine Finset.sum_congr rfl fun i _ => ?_
    refine (min_last_apply _ _ _ _ r i).trans ?_
    refine congrArg fmin (funext fun j => ?_)
    refine (slice3_axis2_apply 0 _ _ r i j (lo j) (by show j.val = 0 + j.val; omega)).trans ?_
    refine (dist_apply x0 x1 r i (lo j)).trans ?_
    rw [sameHalf_lo]
    rfl
  · refine (shapeCast_a_1a_apply _ _ 0 0).trans ?_
    refine (sum_rows_apply _ _ _ _ 0).trans ?_
    refine Finset.sum_congr rfl fun r _ => ?_
    refine (shapeCast_a_a1_apply _ _ r 0).trans ?_
    refine (sum_cols_apply _ _ _ _ r).trans ?_
    refine Finset.sum_congr rfl fun i _ => ?_
    refine (min_last_apply _ _ _ _ r i).trans ?_
    refine congrArg fmin (funext fun j => ?_)
    refine (slice3_axis2_apply 64 _ _ r i j (hi j) (by show 64 + j.val = 64 + j.val; rfl)).trans ?_
    refine (dist_apply x0 x1 r i (hi j)).trans ?_
    rw [sameHalf_hi]
    rfl

end Payload

open Payload

/-! ## The body's three values -/

/-- The value the accumulator is reset to is zero. -/
theorem reset_apply (y : S1x1.Idx) : (k0_pay3 (F := Ideal)) y = 0 := by
  unfold k0_pay3
  refine (congrFun (shapeCast_self _ _) _).trans ?_
  exact Ideal.ofBits_zero_f32

/-- The block written back holds the accumulator's one entry everywhere. -/
theorem spread_apply (v : Vec Ideal S1x1 .f32) (y : S8x128.Idx) :
    k0_pay2 (F := Ideal) v y = v (ix2 0 0) := by
  obtain ⟨p, c, rfl⟩ : ∃ (p : Fin 8) (c : Fin 128), y = ix2 p c := ⟨y 0, y 1, eq_ix2 y⟩
  unfold k0_pay2
  refine (broadcastTo_11_apply _ _ p c).trans ?_
  exact congrFun (shapeCast_self _ _) _

/-- The new accumulator is the old one plus the point's contribution. -/
theorem update_apply (v3 : Vec Ideal S1x1 .f32) (x0 x1 : Vec Ideal S128x128 .f32) (y : S1x1.Idx) :
    k0_pay1 (F := Ideal) v3 (k0_pay5 x0 x1) (k0_pay6 x0 x1) y
      = v3 (ix2 0 0) + blockPartial (blkFn x0) (blkFn x1) := by
  rw [idx11_eq y]
  unfold k0_pay1 blockPartial
  refine (congrFun (shapeCast_self _ _) _).trans ?_
  rw [addf_apply, mulf_apply, addf_apply, broadcast_apply, overFirst_apply, overSecond_apply,
    half_word]

end Cert.L1Order

end
-- ==== Proof.Blocks.lean ====
/-
  What the kernel's two input windows hold at a grid point.

  Before the kernel runs, the host regroups each argument array: rows × 128 is recast to
  rows × 64 × 2, the last two axes are swapped, and the result is recast to rows × 128, so that
  column `64 c + k` holds the argument's column `2 k + c` (`dense`).  Grid point `t` is handed
  rows `128 t … 128 t + 127` of each regrouped array.

  The proof has three steps.  The regrouping read at a row and a column: each of the three
  recasts reads its operand at one index, named by its coordinates, and the positions agree by
  arithmetic (`regroup_apply`).  The host's operations before the kernel, run in order, leave
  exactly that term in the arrays the windows are cut from (`regroupedP_eq`, `regroupedT_eq`).
  And point `t`'s block starts at block row `t`, block column 0 — the index maps send the grid
  coordinates `(t / 32, t % 32)` to `32 (t / 32) + t % 32 = t`, decided over the 64 points — so
  its entry `(r, l)` is the array's entry `(128 t + r, l)`.
-/
import proofs.«428503_j64733747085527_3_alg».proof.Proof.Gen.KernelIdeal.Frame.Runs
import proofs.«428503_j64733747085527_3_alg».proof.Proof.Spec
import Idealize.ShloMosaic.Lib.ValueIdx
import Idealize.ShloMosaic.Lib.Pipeline.Value
import Idealize.ShloMosaic.Lib.StableHlo.Run

noncomputable section

namespace Cert.L1Order

open Idealize.ShloMosaic Idealize.ShloMosaic.ValueIdx Idealize.ShloMosaic.TcCoe Idealize.SL.Sem
open Cert.KernelIdeal Cert.KernelIdeal.Gen
open scoped BigOperators

/-! ## The regrouping, read at a row and a column -/

/-- Recast rows × 128 to rows × 64 × 2, swap the last two axes, recast to rows × 128: column `l`
    of the result is column `2 (l % 64) + l / 64` of the operand.  Row-major positions: the
    outer recast reads `(n, l / 64, l % 64)` since `(2 n + l / 64) · 64 + l % 64 = 128 n + l`; the
    swap reads `(n, l % 64, l / 64)`; the inner recast reads `(n, 2 (l % 64) + l / 64)` since
    `(64 n + l % 64) · 2 + l / 64 = 128 n + 2 (l % 64) + l / 64`. -/
theorem regroup_apply (x : S8192x128.Idx → EReal) (n : Fin 8192) (l : Fin 128) :
    shapeCast S8192x128 (transpose S8192x2x64 [0, 2, 1] (shapeCast S8192x64x2 x shapeCasts_S8192x128_S8192x64x2)
        transposes_S8192x64x2_S8192x2x64_0_2_1) shapeCasts_S8192x2x64_S8192x128 (ix2 n l)
      = x (ix2 n ⟨2 * (l.val % 64) + l.val / 64, by omega⟩) := by
  refine (shapeCast_apply _ shapeCasts_S8192x2x64_S8192x128 (ix2 n l)
    (ix3 n (⟨l.val / 64, by omega⟩ : Fin 2) (⟨l.val % 64, by omega⟩ : Fin 64)) ?_).trans ?_
  · rw [Shape.rowMajor_val_three, Shape.rowMajor_val_two]
    show (n.val * 2 + l.val / 64) * 64 + l.val % 64 = n.val * 128 + l.val
    omega
  refine (transpose_apply [0, 2, 1] _ transposes_S8192x64x2_S8192x2x64_0_2_1
    (ix3 n (⟨l.val / 64, by omega⟩ : Fin 2) (⟨l.val % 64, by omega⟩ : Fin 64))
    (ix3 n (⟨l.val % 64, by omega⟩ : Fin 64) (⟨l.val / 64, by omega⟩ : Fin 2)) ?_).trans ?_
  · intro b
    match b with
    | ⟨0, _⟩ => rfl
    | ⟨1, _⟩ => rfl
    | ⟨2, _⟩ => rfl
  refine shapeCast_apply x shapeCasts_S8192x128_S8192x64x2
    (ix3 n (⟨l.val % 64, by omega⟩ : Fin 64) (⟨l.val / 64, by omega⟩ : Fin 2))
    (ix2 n ⟨2 * (l.val % 64) + l.val / 64, by omega⟩) ?_
  rw [Shape.rowMajor_val_two, Shape.rowMajor_val_three]
  show n.val * 128 + (2 * (l.val % 64) + l.val / 64) = (n.val * 64 + l.val % 64) * 2 + l.val / 64
  omega

/-! ## The index maps, decided over the grid -/

/-- The first window's block at point `t` is block row `t`, block column 0. -/
theorem idxP : ∀ t : Fin cfg0.N, win0_0.index t (0 : Fin 2) = t.val ∧ win0_0.index t (1 : Fin 2) = 0 :=
  (by decide +kernel : ∀ t : Fin grid0.N, _)

/-- The second window's block at point `t` is block row `t`, block column 0. -/
theorem idxT : ∀ t : Fin cfg0.N, win0_1.index t (0 : Fin 2) = t.val ∧ win0_1.index t (1 : Fin 2) = 0 :=
  (by decide +kernel : ∀ t : Fin grid0.N, _)

variable (m : (ℓ : Loc nD τ sig) → Buf (Elt Ideal) ℓ)

/-- A grid point as a number below 64. -/
def pt (t : Fin cfg0.N) : Fin 64 := ⟨t.val, lt_of_lt_of_eq t.isLt N_0⟩

/-- The first argument array on core `c`, by row and column. -/
def argP (c : Dev nD) : Arr := arrFn (m ((c.tc : Thread nD τ).loc main_arg0))
/-- The second argument array on core `c`, by row and column. -/
def argT (c : Dev nD) : Arr := arrFn (m ((c.tc : Thread nD τ).loc main_arg1))

/-- The block of the first regrouped array that point `t` is handed. -/
abbrev pblk (c : Dev nD) (t : Fin cfg0.N) : Vec Ideal S128x128 .f32 := iblk m c 0 t
/-- The block of the second regrouped array that point `t` is handed. -/
abbrev tblk (c : Dev nD) (t : Fin cfg0.N) : Vec Ideal S128x128 .f32 := iblk m c 1 t

/-! ## What the host leaves in the windows' arrays -/

/-- When the kernel starts, the first window's array holds the regrouping of the first argument:
    of the six host operations run in order, the first three write it and the other three write
    other arrays. -/
theorem regroupedP_eq (c : Dev nD) :
    (V m c main_v2 : S8192x128.Idx → EReal)
      = shapeCast S8192x128 (transpose S8192x2x64 [0, 2, 1]
          (shapeCast S8192x64x2 (m ((c.tc : Thread nD τ).loc main_arg0)) shapeCasts_S8192x128_S8192x64x2)
          transposes_S8192x64x2_S8192x2x64_0_2_1) shapeCasts_S8192x2x64_S8192x128 := by
  show StableHlo.after hostOps0 (fun b => m (c, b)) (Proc.devRef .tc main_v2) = _
  after_results
  rfl

/-- When the kernel starts, the second window's array holds the regrouping of the second argument. -/
theorem regroupedT_eq (c : Dev nD) :
    (V m c main_v5 : S8192x128.Idx → EReal)
      = shapeCast S8192x128 (transpose S8192x2x64 [0, 2, 1]
          (shapeCast S8192x64x2 (m ((c.tc : Thread nD τ).loc main_arg1)) shapeCasts_S8192x128_S8192x64x2)
          transposes_S8192x64x2_S8192x2x64_0_2_1) shapeCasts_S8192x2x64_S8192x128 := by
  show StableHlo.after hostOps0 (fun b => m (c, b)) (Proc.devRef .tc main_v5) = _
  after_results
  rfl

/-- Entry `(n, l)` of the first window's array is the first argument's dense regrouping there. -/
theorem regroupedP_apply (c : Dev nD) (n : Fin 8192) (l : Fin 128) :
    (V m c main_v2 : S8192x128.Idx → EReal) (ix2 n l) = dense (argP m c) n l :=
  (congrFun (regroupedP_eq m c) (ix2 n l)).trans (regroup_apply _ n l)

/-- Entry `(n, l)` of the second window's array is the second argument's dense regrouping there. -/
theorem regroupedT_apply (c : Dev nD) (n : Fin 8192) (l : Fin 128) :
    (V m c main_v5 : S8192x128.Idx → EReal) (ix2 n l) = dense (argT m c) n l :=
  (congrFun (regroupedT_eq m c) (ix2 n l)).trans (regroup_apply _ n l)

/-! ## The blocks -/

/-- Entry `(r, l)` of point `t`'s first block is entry `(128 t + r, l)` of the first window's array:
    on each axis the array coordinate is block index × block size + the coordinate inside the block. -/
theorem pblk_apply (c : Dev nD) (t : Fin cfg0.N) (r l : Fin 128) :
    pblk m c t (ix2 r l)
      = (V m c main_v2 : S8192x128.Idx → EReal)
          (ix2 (⟨128 * (pt t).val + r.val, by have := (pt t).isLt; omega⟩ : Fin 8192) l) := by
  obtain ⟨e0, e1⟩ := idxP t
  have hp : (pt t).val = t.val := rfl
  show V m c main_v2 (((cfg0.win 0).blk t).view.emb (ix2 r l))
    = V m c main_v2 (ix2 (⟨128 * (pt t).val + r.val, by have := (pt t).isLt; omega⟩ : Fin 8192) l)
  refine congrArg _ (funext fun a => Fin.ext ?_)
  match a with
  | ⟨0, _⟩ => show win0_0.index t (0 : Fin 2) * 128 + 1 * r.val = 128 * (pt t).val + r.val; omega
  | ⟨1, _⟩ => show win0_0.index t (1 : Fin 2) * 128 + 1 * l.val = l.val; omega

/-- Entry `(r, l)` of point `t`'s second block is entry `(128 t + r, l)` of the second window's array. -/
theorem tblk_apply (c : Dev nD) (t : Fin cfg0.N) (r l : Fin 128) :
    tblk m c t (ix2 r l)
      = (V m c main_v5 : S8192x128.Idx → EReal)
          (ix2 (⟨128 * (pt t).val + r.val, by have := (pt t).isLt; omega⟩ : Fin 8192) l) := by
  obtain ⟨e0, e1⟩ := idxT t
  have hp : (pt t).val = t.val := rfl
  show V m c main_v5 (((cfg0.win 1).blk t).view.emb (ix2 r l))
    = V m c main_v5 (ix2 (⟨128 * (pt t).val + r.val, by have := (pt t).isLt; omega⟩ : Fin 8192) l)
  refine congrArg _ (funext fun a => Fin.ext ?_)
  match a with
  | ⟨0, _⟩ => show win0_1.index t (0 : Fin 2) * 128 + 1 * r.val = 128 * (pt t).val + r.val; omega
  | ⟨1, _⟩ => show win0_1.index t (1 : Fin 2) * 128 + 1 * l.val = l.val; omega

/-- Point `t`'s first block is rows `128 t …` of the regrouped first argument. -/
theorem pblk_eq (c : Dev nD) (t : Fin cfg0.N) :
    blkFn (pblk m c t) = blkOf (dense (argP m c)) (pt t) := by
  funext r l
  exact (pblk_apply m c t r l).trans (regroupedP_apply m c _ l)

/-- Point `t`'s second block is rows `128 t …` of the regrouped second argument. -/
theorem tblk_eq (c : Dev nD) (t : Fin cfg0.N) :
    blkFn (tblk m c t) = blkOf (dense (argT m c)) (pt t) := by
  funext r l
  exact (tblk_apply m c t r l).trans (regroupedT_apply m c _ l)

end Cert.L1Order

end
-- ==== Proof.Accumulate.lean ====
/-
  The accumulator, point by point.

  The grid's 64 points run in order.  At the first point of each half (points 0 and 32) the
  accumulator is set to zero before the point's contribution is added; at every other point the
  contribution is added to what the point before left.  So after point `n` the accumulator holds
  the sum of the contributions of the points `32 (n / 32) … n` of its half.  At the last point of
  a half (31 and 63) the accumulator is copied into every entry of the 8 × 128 block written back.
-/
import proofs.«428503_j64733747085527_3_alg».proof.Proof.Gen.KernelIdeal.Frame
import proofs.«428503_j64733747085527_3_alg».proof.Proof.Payload
import proofs.«428503_j64733747085527_3_alg».proof.Proof.Blocks

set_option maxRecDepth 16384

noncomputable section

namespace Cert.L1Order

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## What each case of the body leaves, as the body's own terms -/

section Pieces

variable {F : FTy → Type} [FloatOps F]

theorem hz : (![0, 0] : Fin 2 → Nat) = fun _ => 0 := funext fun a => by fin_cases a <;> rfl

/-- At the first point of a half: the accumulator is reset, read back, and updated. -/
theorem left_first (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x1 .f32) (harg5 : arg5.IsWhole) (hc0 : cond0_0 i) (hc1 : ¬cond0_1 i) (x0 x1 : Vec F S128x128 .f32) :
    sout0_A_0 c i arg2 harg2 arg3 harg3 arg4 harg4 arg5 harg5 hc0 hc1 x0 x1 = k0_pay1 (k0_pay3 (F := F)) (k0_pay5 x0 x1) (k0_pay6 x0 x1) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S128x128) hz]

/-- At a middle point: the accumulator the point before left is updated. -/
theorem left_middle (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : ¬cond0_1 i) (x0 x1 : Vec F S128x128 .f32) (xs0 : Vec F S1x1 .f32) :
    sout0_B_0 c i arg2 harg2 arg3 harg3 arg4 harg4 arg5 harg5 hc0 hc1 x0 x1 xs0 = k0_pay1 xs0 (k0_pay5 x0 x1) (k0_pay6 x0 x1) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz]
  simp only [View.readAt_eq_ld, harg2.read_unread, harg3.read_unread, harg5.read_unread, View.ld_unit_zero (S := S128x128) hz, View.ld_unit_zero (S := S1x1) hz]

/-- At the last point of a half the accumulator is updated in the same way, -/
theorem left_last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i) (x0 x1 : Vec F S128x128 .f32) (xs0 : Vec F S1x1 .f32) :
    sout0_C_0 c i arg2 harg2 arg3 harg3 arg4 harg4 arg5 harg5 hc0 hc1 x0 x1 xs0 = k0_pay1 xs0 (k0_pay5 x0 x1) (k0_pay6 x0 x1) := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz]
  simp only [View.readAt_eq_ld, harg2.read_unread, harg3.read_unread, harg5.read_unread, View.ld_unit_zero (S := S128x128) hz, View.ld_unit_zero (S := S1x1) hz]

/-- and the block written back is the updated accumulator spread over 8 × 128. -/
theorem block_last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i) (x0 x1 : Vec F S128x128 .f32) (xs0 : Vec F S1x1 .f32) :
    out0_C_2 c i arg2 harg2 arg3 harg3 arg4 harg4 arg5 harg5 hc0 hc1 x0 x1 xs0 = k0_pay2 (k0_pay1 xs0 (k0_pay5 x0 x1) (k0_pay6 x0 x1)) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x128) hz, View.readCov_unit_zero (S := S1x1) _ hz]
  simp only [View.readAt_eq_ld, harg2.read_unread, harg3.read_unread, harg5.read_unread, View.ld_unit_zero (S := S128x128) hz, View.ld_unit_zero (S := S1x1) hz]

end Pieces

/-! ## The running sum -/

variable (m : (ℓ : Loc nD τ sig) → Buf (Elt Ideal) ℓ)

/-- Point `n`'s contribution (zero past the grid, where it is never used). -/
def addend (c : Dev nD) (n : ℕ) : EReal :=
  if h : n < 64 then bp (argP m c) (argT m c) ⟨n, h⟩ else 0

/-- The contribution computed from point `t`'s two blocks is `addend` at `t`. -/
theorem addend_eq (c : Dev nD) (t : Fin cfg0.N) :
    blockPartial (blkFn (pblk m c t)) (blkFn (tblk m c t)) = addend m c t.val := by
  rw [pblk_eq, tblk_eq]
  unfold addend bp
  rw [dif_pos (show t.val < 64 from (pt t).isLt)]
  rfl

/-- The accumulator's one entry after point `n`. -/
def accAfter (c : Dev nD) (n : ℕ) (h : n < cfg0.N) : EReal := (outsAt0 m c n h).2 (ix2 0 0)

/-- After the first point of a half the accumulator holds that point's contribution. -/
theorem acc_first (c : Dev nD) (t : Fin cfg0.N) (h0 : t.val % 32 = 0) :
    accAfter m c t.val t.isLt = addend m c t.val := by
  have h1 : ¬t.val % 32 = 31 := by omega
  unfold accAfter
  rw [outsAt0_A m c t h0 h1]
  dsimp only
  refine (congrFun (left_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 0 0)).trans ?_
  refine (update_apply (k0_pay3 (F := Ideal)) (pblk m c t) (tblk m c t) (ix2 0 0)).trans ?_
  rw [reset_apply, zero_add, addend_eq]

/-- After any other point it holds what the point before left plus the point's contribution. -/
theorem acc_step (c : Dev nD) (t : Fin cfg0.N) (h0 : ¬t.val % 32 = 0) :
    accAfter m c t.val t.isLt
      = accAfter m c (t.val - 1) (Nat.lt_of_le_of_lt (Nat.sub_le _ _) t.isLt) + addend m c t.val := by
  unfold accAfter
  by_cases h1 : t.val % 32 = 31
  · rw [outsAt0_C m c t h0 h1]
    dsimp only
    refine (congrFun (left_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 0 0)).trans ?_
    refine (update_apply (outsAt0 m c (t.val - 1) (Nat.lt_of_le_of_lt (Nat.sub_le _ _) t.isLt)).2 (pblk m c t) (tblk m c t) (ix2 0 0)).trans ?_
    rw [addend_eq]
  · rw [outsAt0_B m c t h0 h1]
    dsimp only
    refine (congrFun (left_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 0 0)).trans ?_
    refine (update_apply (outsAt0 m c (t.val - 1) (Nat.lt_of_le_of_lt (Nat.sub_le _ _) t.isLt)).2 (pblk m c t) (tblk m c t) (ix2 0 0)).trans ?_
    rw [addend_eq]

/-- THE RUNNING SUM: after point `n` the accumulator holds the contributions of the points of
    `n`'s half up to `n`. -/
theorem acc_eq (c : Dev nD) : ∀ (n : ℕ) (h : n < cfg0.N),
    accAfter m c n h = ∑ s ∈ Finset.range (n % 32 + 1), addend m c (32 * (n / 32) + s) := by
  intro n
  induction n with
  | zero =>
    intro h
    rw [acc_first m c ⟨0, h⟩ rfl]
    simp
  | succ n ih =>
    intro h
    by_cases h0 : (n + 1) % 32 = 0
    · rw [acc_first m c ⟨n + 1, h⟩ h0]
      have e : 32 * ((n + 1) / 32) = n + 1 := by omega
      rw [h0, e]
      simp
    · rw [acc_step m c ⟨n + 1, h⟩ h0]
      show accAfter m c n _ + addend m c (n + 1) = _
      rw [ih (Nat.lt_of_succ_lt h)]
      have e1 : (n + 1) % 32 = n % 32 + 1 := by omega
      have e2 : (n + 1) / 32 = n / 32 := by omega
      have e3 : 32 * (n / 32) + (n % 32 + 1) = n + 1 := by omega
      rw [e1, e2, Finset.sum_range_succ _ (n % 32 + 1), e3]

/-- At the last point of a half every entry of the block written back is the whole half's sum. -/
theorem block_eq (c : Dev nD) (t : Fin cfg0.N) (h1 : t.val % 32 = 31) (y : S8x128.Idx) :
    (outsAt0 m c t.val t.isLt).1 y = ∑ s ∈ Finset.range 32, addend m c (32 * (t.val / 32) + s) := by
  have h0 : ¬t.val % 32 = 0 := by omega
  have hacc := acc_eq m c t.val t.isLt
  rw [h1] at hacc
  rw [← hacc]
  unfold accAfter
  rw [outsAt0_C m c t h0 h1]
  dsimp only
  refine (congrFun (block_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) y).trans ?_
  refine (spread_apply _ y).trans ?_
  exact (congrFun (left_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 0 0)).symm

end Cert.L1Order

end
-- ==== Proof.KernelValue.lean ====
/-
  The kernel's result.

  The result array of the kernel has 16 rows of 128; grid half `c` writes its accumulator into
  every entry of rows `8 c … 8 c + 7`, at the half's last point.  The two written blocks tile the
  array, so the array ends holding accumulator `r / 8` in row `r`.  The host then sums the array
  from zero, divides by 1024, multiplies by one and divides by 2^26: `kernelVal`.
-/
import proofs.«428503_j64733747085527_3_alg».proof.Proof.Accumulate
import Idealize.ShloMosaic.Lib.StableHlo.Run
import Idealize.ShloMosaic.PureOps.Ideal.Laws

set_option maxRecDepth 16384

noncomputable section

namespace Cert.L1Order

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Idealize.ShloMosaic.StableHlo
open scoped BigOperators

variable (m : (ℓ : Loc nD τ sig) → Buf (Elt Ideal) ℓ) (ρ : Dev nD → PrngReg)

/-- The result array: row `r` holds the accumulator of half `r / 8` in every column. -/
def outArr (c : Dev nD) : S16x128.Idx → Elt Ideal .f32 := fun i =>
  accOf (argP m c) (argT m c) ⟨(i 0).val / 8, by have h : (i 0).val < 16 := (i 0).isLt; omega⟩

/-- The result window's block index at point `t` is `(t / 32, 0)`: decided over the grid. -/
theorem out_idx : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- What a half's last point writes back is that half's block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 32 = 31 := (flush0_2 t).mp hf
  show (cfg0.win 2).cut (grid0.coords t) ((dats m 0 c).after 2 t) = _
  rw [after0_2]
  funext j
  show (outsAt0 m c t.val t.isLt).1 j = outArr m c (((cfg0.win 2).blk t).view.emb j)
  rw [block_eq m c t h1 j]
  obtain ⟨e0, e1⟩ := out_idx t
  have hrow : ((((cfg0.win 2).blk t).view.emb j) 0).val = t.val / 32 * 8 + 1 * (j 0).val := by
    show win0_2.index t (0 : Fin 2) * 8 + 1 * (j 0).val = _
    rw [e0]
  have hj : (j 0).val < 8 := (j 0).isLt
  have hN : t.val < 64 := lt_of_lt_of_eq t.isLt N_0
  unfold outArr accOf
  rw [Finset.sum_range]
  refine Finset.sum_congr rfl fun s _ => ?_
  have hs : s.val < 32 := s.isLt
  unfold addend
  rw [dif_pos (by omega)]
  congr 1
  apply Fin.ext
  show 32 * (t.val / 32) + s.val = 32 * (((((cfg0.win 2).blk t).view.emb j) 0).val / 8) + s.val
  rw [hrow]
  omega

/-- An index of the result array is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v6).slice (win0_2.rect t)).set ↔ _
  rw [View.set_slice_whole, Rect.mem_set_unit]
  exact Iff.rfl

/-- Every index of the result array is in the block some half's last point writes back. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hlt : 32 * ((i 0).val / 8) + 31 < cfg0.N := lt_of_lt_of_eq (by omega) N_0.symm
  obtain ⟨e0, e1⟩ := out_idx ⟨32 * ((i 0).val / 8) + 31, hlt⟩
  have e0' : win0_2.index ⟨32 * ((i 0).val / 8) + 31, hlt⟩ (0 : Fin 2) = (32 * ((i 0).val / 8) + 31) / 32 := e0
  refine ⟨⟨32 * ((i 0).val / 8) + 31, hlt⟩, (flush0_2 _).mpr (by show (32 * ((i 0).val / 8) + 31) % 32 = 31; omega), ?_⟩
  rw [mem_blk]
  intro a
  match a with
  | ⟨0, _⟩ =>
    show win0_2.index ⟨32 * ((i 0).val / 8) + 31, hlt⟩ (0 : Fin 2) * 8 ≤ (i 0).val ∧ (i 0).val < win0_2.index ⟨32 * ((i 0).val / 8) + 31, hlt⟩ (0 : Fin 2) * 8 + 8
    rw [e0']; omega
  | ⟨1, _⟩ =>
    show win0_2.index ⟨32 * ((i 0).val / 8) + 31, hlt⟩ (1 : Fin 2) * 128 ≤ (i 1).val ∧ (i 1).val < win0_2.index ⟨32 * ((i 0).val / 8) + 31, hlt⟩ (1 : Fin 2) * 128 + 128
    rw [e1]; omega

/-- The result array after the run. -/
theorem final_out (c : Dev nD) : (dats m 0 c).arrAt 2 cfg0.N = outArr m c :=
  (dats m 0 c).arrAt_eq_of_cover 2 (outArr m c) (fun t hf => flushed_eq m c t hf) cover

/-- The host operations after the kernel, applied to the result array. -/
theorem tail_value (c : Dev nD) :
    Pipeline.afterTail₀ cfgs (dats m) 0 (V0 m) [hostOps1] c main_v10
      = fun _ => kernelVal (argP m c) (argT m c) := by
  unfold Pipeline.afterTail₀
  show StableHlo.after hostOps1 _ (Proc.devRef .tc main_v10) = _
  after_results
  have e : Pipeline.withArrays (cfgs 0).spec c (V0 m c) (fun w => (dats m 0 c).arrAt w (cfgs 0).N)
      (Proc.tc.devRef main_v6) = outArr m c :=
    (Pipeline.withArrays_arr spec0 launch0.win.arr_inj c _ _ 2).trans (final_out m c)
  rw [e]
  funext i
  have hsum : Host.reduceAdd (F := Ideal) (outArr m c) (constant S_ .f32 0x00000000#32) reducesTo_S16x128_S_d0_1 h_S_ i
      = zeroW + ∑ r : Fin 16, ∑ _l : Fin 128, accOf (argP m c) (argT m c) ⟨r.val / 8, by omega⟩ := by
    simp only [Host.reduceAdd, Ideal.hostReduceAdd_def]
    rw [Ideal.hostReduceAdd_total reducesTo_S16x128_S_d0_1 (fun b => b.elim0) (outArr m c) _ i, sum_idx2]
    rfl
  show Ideal.div (oneW * Ideal.div (Host.reduceAdd (F := Ideal) (outArr m c) (constant S_ .f32 0x00000000#32)
      reducesTo_S16x128_S_d0_1 h_S_ i) w1024) w2p26 = _
  rw [hsum]
  rfl

/-- The kernel program's run: its result is `kernelVal` of the two argument arrays, which end unchanged. -/
theorem kernel_run : θ_run defs (onTc (τ := τ) (main (F := Ideal))) ⟨m, fun _ => 0, ρ⟩ fun r => ∀ c : Dev nD,
      r.2.mem ((c.tc : Thread nD τ).loc main_v10) = (fun _ => kernelVal (argP m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.L1Order

end
-- ==== Proof.Reference.lean ====
/-
  The reference program's result is the specification's `refVal`.

  Its 25 host operations: each argument array is recast to rows × 64 points × 2 coordinates,
  the two are broadcast against each other over a fourth axis, subtracted and taken in absolute
  value; a minimum over the second array's points and one over the first's are added, halved,
  recast to rows × 128, summed from zero, divided by 2^20, multiplied by one, divided by 64.

  The proof reads the program backwards from one entry.  Entry (n, i, j, c) of the four-axis
  array of absolute differences is |p − t| for p the first array's row n, column 2 i + c and t
  the second array's row n, column 2 j + c (`dist_at`).  Each minimum reduction is a fold of
  `min` from +∞ over the 64 coordinates of the axis it drops, so the two reductions are
  `dOne` and `dTwo` (`v8_at`, `v9_at`).  The second recast sends (n, q) to
  (n, q / 2, q % 2) (`v13_at`), and the total sum over the rank-2 index set is the double sum
  over rows and columns.
-/
import proofs.«428503_j64733747085527_3_alg».proof.Proof.Gen.ReferenceIdeal.Read
import proofs.«428503_j64733747085527_3_alg».proof.Proof.Spec
import Idealize.ShloMosaic.Lib.ValueIdx
import Idealize.ShloMosaic.PureOps.Ideal.Laws

noncomputable section

namespace Cert.L1Order

open Idealize.ShloMosaic Idealize.ShloMosaic.ValueIdx
open Cert.ReferenceIdeal Cert.ReferenceIdeal.Gen Cert.ReferenceIdeal.Read
open scoped BigOperators

/-! ## The index maps at explicit coordinates -/

/-- Through the two broadcasts and the recast of the first array, entry (n, i, j, c) reads row n,
    column 2 i + c: the row-major position ((64 n + i) · 2 + c) is 128 n + (2 i + c). -/
theorem idx_left (n : Fin 8192) (i j : Fin 64) (c : Fin 2) :
    idx_main_v0 (idx_main_v2 (idx_main_v4 (ix4 n i j c))) = ix2 n (il i c) := by
  funext a
  match a with
  | ⟨0, _⟩ => exact Fin.ext (by show ((n.val * 64 + i.val) * 2 + c.val) / 128 = n.val; omega)
  | ⟨1, _⟩ => exact Fin.ext (by show ((n.val * 64 + i.val) * 2 + c.val) % 128 = 2 * i.val + c.val; omega)

/-- Through the two broadcasts and the recast of the second array, entry (n, i, j, c) reads row n,
    column 2 j + c. -/
theorem idx_right (n : Fin 8192) (i j : Fin 64) (c : Fin 2) :
    idx_main_v1 (idx_main_v3 (idx_main_v5 (ix4 n i j c))) = ix2 n (il j c) := by
  funext a
  match a with
  | ⟨0, _⟩ => exact Fin.ext (by show ((n.val * 64 + j.val) * 2 + c.val) / 128 = n.val; omega)
  | ⟨1, _⟩ => exact Fin.ext (by show ((n.val * 64 + j.val) * 2 + c.val) % 128 = 2 * j.val + c.val; omega)

/-- The recast back to rows × 128 reads entry (n, q) at point q / 2, coordinate q % 2 of row n:
    the row-major position 128 n + q is (64 n + q / 2) · 2 + q % 2. -/
theorem idx_back (n : Fin 8192) (q : Fin 128) :
    idx_main_v13 (ix2 n q) = ix3 n (⟨q.val / 2, by omega⟩ : Fin 64) (⟨q.val % 2, by omega⟩ : Fin 2) := by
  funext a
  match a with
  | ⟨0, _⟩ => exact Fin.ext (by show (n.val * 128 + q.val) / 128 = n.val; omega)
  | ⟨1, _⟩ => exact Fin.ext (by show (n.val * 128 + q.val) / 2 % 64 = q.val / 2; omega)
  | ⟨2, _⟩ => exact Fin.ext (by show (n.val * 128 + q.val) % 2 = q.val % 2; omega)

/-! ## One entry of the array of absolute differences -/

/-- Entry (n, i, j, c) is the distance between coordinate c of point i of the first array's row n
    and coordinate c of point j of the second's. -/
theorem dist_at (x0 x1 : (⟨S8192x128, .f32⟩ : BufTy).Contents (Elt Ideal))
    (n : Fin 8192) (i j : Fin 64) (c : Fin 2) :
    val_main_v7 (F := Ideal) x0 x1 (ix4 n i j c)
      = ad (arrFn x0 n (il i c)) (arrFn x1 n (il j c)) := by
  rw [val_main_v7_apply, val_main_v6_apply, val_main_v4_apply, val_main_v2_apply, val_main_v0_apply,
    val_main_v5_apply, val_main_v3_apply, val_main_v1_apply, idx_left, idx_right]
  rfl

/-! ## The two minimum reductions -/

/-- The shape fact that names the index inserted on the dropped axis, for the reduction over the
    second array's points … -/
theorem red_d2 : Shape.Reduces S8192x64x64x2 [2] S8192x64x2 := by decide
/-- … and for the one over the first array's points. -/
theorem red_d1 : Shape.Reduces S8192x64x64x2 [1] S8192x64x2 := by decide

/-- Inserting k on axis 2 over (n, i, c) gives (n, i, k, c). -/
theorem lift_d2 (n : Fin 8192) (i : Fin 64) (c : Fin 2) (k : Fin 64) :
    red_d2.lift (ix3 n i c) k = ix4 n i k c := by
  funext a
  match a with
  | ⟨0, _⟩ => exact Fin.ext rfl
  | ⟨1, _⟩ => exact Fin.ext rfl
  | ⟨2, _⟩ => exact Fin.ext rfl
  | ⟨3, _⟩ => exact Fin.ext rfl

/-- Inserting k on axis 1 over (n, j, c) gives (n, k, j, c). -/
theorem lift_d1 (n : Fin 8192) (j : Fin 64) (c : Fin 2) (k : Fin 64) :
    red_d1.lift (ix3 n j c) k = ix4 n k j c := by
  funext a
  match a with
  | ⟨0, _⟩ => exact Fin.ext rfl
  | ⟨1, _⟩ => exact Fin.ext rfl
  | ⟨2, _⟩ => exact Fin.ext rfl
  | ⟨3, _⟩ => exact Fin.ext rfl

/-- The minimum over the second array's points, at (n, i, c): the least distance from point i. -/
theorem v8_at (x0 x1 : (⟨S8192x128, .f32⟩ : BufTy).Contents (Elt Ideal))
    (n : Fin 8192) (i : Fin 64) (c : Fin 2) :
    val_main_v8 (F := Ideal) x0 x1 (ix3 n i c) = dOne (arrFn x0) (arrFn x1) n i c := by
  unfold val_main_v8
  refine (Host.reduce_eq_fold_single _ _ _ reducesTo_S8192x64x64x2_S8192x64x2_d2 red_d2 h_S_
    (ix3 n i c)).trans ?_
  show (Finset.univ : Finset (Fin 64)).fold min infW
      (fun k => val_main_v7 (F := Ideal) x0 x1 (red_d2.lift (ix3 n i c) k)) = _
  unfold dOne fmin
  refine Finset.fold_congr (fun (k : Fin 64) _ => ?_)
  exact (congrArg (val_main_v7 (F := Ideal) x0 x1) (lift_d2 n i c k)).trans (dist_at x0 x1 n i k c)

/-- The minimum over the first array's points, at (n, j, c): the least distance to point j. -/
theorem v9_at (x0 x1 : (⟨S8192x128, .f32⟩ : BufTy).Contents (Elt Ideal))
    (n : Fin 8192) (j : Fin 64) (c : Fin 2) :
    val_main_v9 (F := Ideal) x0 x1 (ix3 n j c) = dTwo (arrFn x0) (arrFn x1) n j c := by
  unfold val_main_v9
  refine (Host.reduce_eq_fold_single _ _ _ reducesTo_S8192x64x64x2_S8192x64x2_d1 red_d1 h_S_
    (ix3 n j c)).trans ?_
  show (Finset.univ : Finset (Fin 64)).fold min infW
      (fun k => val_main_v7 (F := Ideal) x0 x1 (red_d1.lift (ix3 n j c) k)) = _
  unfold dTwo fmin
  refine Finset.fold_congr (fun (k : Fin 64) _ => ?_)
  exact (congrArg (val_main_v7 (F := Ideal) x0 x1) (lift_d1 n j c k)).trans (dist_at x0 x1 n k j c)

/-! ## The halved sum, recast to rows × 128 -/

/-- Entry (n, q) of the recast array: half the sum of the two minima at point q / 2,
    coordinate q % 2. -/
theorem v13_at (x0 x1 : (⟨S8192x128, .f32⟩ : BufTy).Contents (Elt Ideal))
    (n : Fin 8192) (q : Fin 128) :
    val_main_v13 (F := Ideal) x0 x1 (ix2 n q)
      = (dOne (arrFn x0) (arrFn x1) n ⟨q.val / 2, by omega⟩ ⟨q.val % 2, by omega⟩
          + dTwo (arrFn x0) (arrFn x1) n ⟨q.val / 2, by omega⟩ ⟨q.val % 2, by omega⟩) * halfW := by
  rw [val_main_v13_apply, idx_back, val_main_v12_apply, val_main_v10_apply, val_main_v11_apply,
    val_main_cst_1_apply, v8_at, v9_at]
  rfl

/-! ## The result -/

/-- The reference's last stage, at its one index, is `refVal` of the two argument arrays. -/
theorem ref_value (x0 x1 : (⟨S8192x128, .f32⟩ : BufTy).Contents (Elt Ideal)) (i : S_.Idx) :
    val_main_v17 (F := Ideal) x0 x1 i = refVal (arrFn x0) (arrFn x1) := by
  rw [val_main_v17_apply, val_main_v16_apply, val_main_v15_apply, val_main_v14_apply,
    ValueIdx.sum_idx2]
  simp only [v13_at]
  rfl

end Cert.L1Order

end
-- ==== Proof.Algebra.lean ====
/-
  The two formulas of the specification are one extended real.

  Only three laws are used: addition of extended reals is commutative and associative, so finite
  sums may be regrouped and re-indexed freely; a product with the real number ½ distributes
  over a sum of ANY extended reals (`½·(a + b) = ½·a + ½·b` also at the infinities); and
  division by a nonzero real `y` is the product with `1 / y`.

  Both formulas come down to `(∑ n, ½ · rowSum n) · 2⁻²⁶`, where `rowSum n` adds, over the 64
  points and the 2 coordinates of row `n`, the two least distances `dOne + dTwo`.  On the
  reference's side this is a re-indexing of the 128 interleaved columns as 64 × 2.  On the
  kernel's side the dense columns `lo i`, `hi i` are the interleaved columns `il i 0`, `il i 1`,
  the 128 dense columns are the 64 low ones and the 64 high ones, the 8192 rows are 64 blocks
  of 128, the 64 blocks are 2 × 32, and the 16 × 128 entries of the result hold each of the two
  accumulators 1024 times, which the division by 1024 undoes.
-/
import proofs.«428503_j64733747085527_3_alg».proof.Proof.Spec
import Mathlib.Data.EReal.Operations
import Mathlib.Data.EReal.Inv
import Mathlib.Algebra.BigOperators.Fin
import Mathlib.Data.Fintype.BigOperators
import Mathlib.Logic.Equiv.Fin.Basic

noncomputable section

namespace Cert.L1Order

open Idealize.ShloMosaic
open scoped BigOperators

/-! ## The float words as extended reals -/

theorem halfW_eq : halfW = ((1 / 2 : ℝ) : EReal) := by
  simp [halfW, Ideal.ofBits, Ideal.ieee, -EReal.coe_mul]; norm_num

theorem zeroW_eq : zeroW = 0 := by
  simp [zeroW, Ideal.ofBits, Ideal.ieee]

theorem oneW_eq : oneW = 1 := by
  simp [oneW, Ideal.ofBits, Ideal.ieee, -EReal.coe_mul]; norm_num

theorem w1024_eq : w1024 = ((1024 : ℝ) : EReal) := by
  simp [w1024, Ideal.ofBits, Ideal.ieee, -EReal.coe_mul]; norm_num

theorem w2p26_eq : w2p26 = ((67108864 : ℝ) : EReal) := by
  simp [w2p26, Ideal.ofBits, Ideal.ieee, -EReal.coe_mul]; norm_num

theorem w2p20_eq : w2p20 = ((1048576 : ℝ) : EReal) := by
  simp [w2p20, Ideal.ofBits, Ideal.ieee, -EReal.coe_mul]; norm_num

theorem w64_eq : w64 = ((64 : ℝ) : EReal) := by
  simp [w64, Ideal.ofBits, Ideal.ieee, -EReal.coe_mul]; norm_num

/-! ## Re-indexing a finite sum over a product of two ranges -/

/-- `b x + y < a b` for `x < a` and `y < b`. -/
theorem split_bound {N a b : ℕ} (h : N = a * b) (x : Fin a) (y : Fin b) : b * x.val + y.val < N := by
  subst h
  calc b * x.val + y.val < b * x.val + b := Nat.add_lt_add_left y.isLt _
    _ = b * (x.val + 1) := (Nat.mul_succ _ _).symm
    _ ≤ b * a := Nat.mul_le_mul_left _ x.isLt
    _ = a * b := Nat.mul_comm _ _

/-- A sum over `a b` indices is the sum over `x < a` of the sums over `y < b` at `b x + y`. -/
theorem sum_split {M : Type*} [AddCommMonoid M] {N : ℕ} (a b : ℕ) (h : N = a * b) (f : Fin N → M) :
    ∑ q, f q = ∑ x : Fin a, ∑ y : Fin b, f ⟨b * x.val + y.val, split_bound h x y⟩ := by
  subst h
  rw [← (finProdFinEquiv (m := a) (n := b)).sum_comp, Fintype.sum_prod_type]
  refine Finset.sum_congr rfl fun x _ => Finset.sum_congr rfl fun y _ => ?_
  congr 1
  apply Fin.ext
  simp [finProdFinEquiv, Nat.add_comm]

/-- The 128 interleaved columns `q` are the pairs (point `q / 2`, coordinate `q % 2`). -/
theorem sum_pairs {M : Type*} [AddCommMonoid M] (h : Fin 64 → Fin 2 → M) :
    ∑ q : Fin 128, h ⟨q.val / 2, by omega⟩ ⟨q.val % 2, by omega⟩ = ∑ i : Fin 64, ∑ c : Fin 2, h i c := by
  rw [sum_split 64 2 (by norm_num : (128 : ℕ) = 64 * 2)]
  refine Finset.sum_congr rfl fun i _ => Finset.sum_congr rfl fun c _ => ?_
  exact congrArg₂ h (Fin.ext (by show (2 * i.val + c.val) / 2 = i.val; omega))
    (Fin.ext (by show (2 * i.val + c.val) % 2 = c.val; omega))

/-- The 128 dense columns are the 64 low ones and the 64 high ones. -/
theorem sum_halves {M : Type*} [AddCommMonoid M] (g : Fin 128 → M) :
    ∑ l, g l = ∑ j : Fin 64, g (lo j) + ∑ j : Fin 64, g (hi j) := by
  rw [sum_split 2 64 (by norm_num : (128 : ℕ) = 2 * 64) g, Fin.sum_univ_two]
  rfl

/-- A 16 × 128 array whose row `r` holds `a (r / 8)` in every column sums to 1024 times `a 0 + a 1`. -/
theorem sum_rows16 {M : Type*} [AddCommMonoid M] (a : Fin 2 → M) :
    ∑ r : Fin 16, ∑ _l : Fin 128, a ⟨r.val / 8, by omega⟩ = (1024 : ℕ) • ∑ c : Fin 2, a c := by
  rw [sum_split 2 8 (by norm_num : (16 : ℕ) = 2 * 8), ← Finset.sum_nsmul]
  refine Finset.sum_congr rfl fun c _ => ?_
  have e : ∀ s : Fin 8, (⟨(8 * c.val + s.val) / 8, by omega⟩ : Fin 2) = c :=
    fun s => Fin.ext (by show (8 * c.val + s.val) / 8 = c.val; omega)
  refine (Finset.sum_congr rfl fun s _ => Finset.sum_congr rfl fun _ _ => congrArg a (e s)).trans ?_
  simp only [Finset.sum_const, Finset.card_univ, Fintype.card_fin, smul_smul, Nat.reduceMul]

/-! ## One half distributes over every finite sum of extended reals -/

theorem half_mul_add (y z : EReal) : halfW * (y + z) = halfW * y + halfW * z := by
  rw [halfW_eq]
  exact EReal.left_distrib_of_nonneg_of_ne_top (EReal.coe_nonneg.mpr (by norm_num)) (EReal.coe_ne_top _) y z

theorem half_mul_sum {ι : Type*} (s : Finset ι) (f : ι → EReal) :
    halfW * ∑ i ∈ s, f i = ∑ i ∈ s, halfW * f i := by
  classical
  induction s using Finset.induction_on with
  | empty => simp
  | insert a s ha ih => rw [Finset.sum_insert ha, Finset.sum_insert ha, half_mul_add, ih]

/-! ## The scalings -/

/-- 1024 copies of `X`, divided by 1024, are `X`, also at the infinities. -/
theorem mul_cancel_1024 (X : EReal) : ((1024 : ℕ) • X) * ((1 / 1024 : ℝ) : EReal) = X := by
  rw [EReal.nsmul_eq_mul, mul_comm ((1024 : ℕ) : EReal) X, mul_assoc]
  have h : ((1024 : ℕ) : EReal) * ((1 / 1024 : ℝ) : EReal) = 1 := by
    rw [← EReal.coe_natCast, ← EReal.coe_mul]; norm_num
  rw [h, mul_one]

/-- Dividing by 2^20 and then by 64 is dividing by 2^26. -/
theorem scale_merge (Y : EReal) :
    Y * ((1 / 1048576 : ℝ) : EReal) * ((1 / 64 : ℝ) : EReal) = Y * ((1 / 67108864 : ℝ) : EReal) := by
  rw [mul_assoc, ← EReal.coe_mul]; norm_num

/-! ## Dense columns are interleaved columns -/

theorem dense_lo (A : Arr) (n : Fin 8192) (i : Fin 64) : dense A n (lo i) = A n (il i 0) := by
  refine congrArg (A n) (Fin.ext ?_)
  show 2 * (i.val % 64) + i.val / 64 = 2 * i.val + 0
  omega

theorem dense_hi (A : Arr) (n : Fin 8192) (i : Fin 64) : dense A n (hi i) = A n (il i 1) := by
  refine congrArg (A n) (Fin.ext ?_)
  show 2 * ((64 + i.val) % 64) + (64 + i.val) / 64 = 2 * i.val + 1
  omega

theorem sameHalf_lo (j i : Fin 64) : sameHalf (lo j) i = lo i := by
  have h : (lo j).val < 64 := j.isLt
  rw [sameHalf, if_pos h]

theorem sameHalf_hi (j i : Fin 64) : sameHalf (hi j) i = hi i := by
  have h : ¬ (hi j).val < 64 := by
    show ¬ (64 + j.val < 64)
    omega
  rw [sameHalf, if_neg h]

/-! ## One row -/

/-- The two least distances, added over the 64 points and the 2 coordinates of row `n`. -/
def rowSum (P T : Arr) (n : Fin 8192) : EReal :=
  ∑ i : Fin 64, ∑ c : Fin 2, (dOne P T n i c + dTwo P T n i c)

theorem minP_lo (P T : Arr) (n : Fin 8192) (i : Fin 64) :
    (fmin fun j => ad (dense P n (lo i)) (dense T n (lo j))) = dOne P T n i 0 := by
  simp only [dense_lo]; rfl

theorem minP_hi (P T : Arr) (n : Fin 8192) (i : Fin 64) :
    (fmin fun j => ad (dense P n (hi i)) (dense T n (hi j))) = dOne P T n i 1 := by
  simp only [dense_hi]; rfl

theorem minT_lo (P T : Arr) (n : Fin 8192) (j : Fin 64) :
    (fmin fun i => ad (dense P n (sameHalf (lo j) i)) (dense T n (lo j))) = dTwo P T n j 0 := by
  simp only [sameHalf_lo, dense_lo]; rfl

theorem minT_hi (P T : Arr) (n : Fin 8192) (j : Fin 64) :
    (fmin fun i => ad (dense P n (sameHalf (hi j) i)) (dense T n (hi j))) = dTwo P T n j 1 := by
  simp only [sameHalf_hi, dense_hi]; rfl

/-- The kernel's three families of minima in one dense row add up to that row's `rowSum`. -/
theorem row_kernel (P T : Arr) (n : Fin 8192) :
    ((∑ i : Fin 64, fmin fun j => ad (dense P n (lo i)) (dense T n (lo j)))
        + (∑ i : Fin 64, fmin fun j => ad (dense P n (hi i)) (dense T n (hi j))))
      + (∑ l : Fin 128, fmin fun i => ad (dense P n (sameHalf l i)) (dense T n l))
    = rowSum P T n := by
  rw [sum_halves (fun l => fmin fun i => ad (dense P n (sameHalf l i)) (dense T n l))]
  simp only [minP_lo, minP_hi, minT_lo, minT_hi]
  -- the left side is now (∑ dOne · 0 + ∑ dOne · 1) + (∑ dTwo · 0 + ∑ dTwo · 1); on the right, the
  -- sum over the two coordinates of dOne + dTwo is the sum of dOne plus the sum of dTwo, each is
  -- its two terms, and the sum over the points distributes over these additions: the same grouping
  simp only [rowSum, Fin.sum_univ_two, Finset.sum_add_distrib]

/-- The reference's sum over the 128 interleaved columns of a row is half that row's `rowSum`. -/
theorem row_ref (P T : Arr) (n : Fin 8192) :
    (∑ q : Fin 128, (dOne P T n ⟨q.val / 2, by omega⟩ ⟨q.val % 2, by omega⟩
        + dTwo P T n ⟨q.val / 2, by omega⟩ ⟨q.val % 2, by omega⟩) * halfW)
      = halfW * rowSum P T n := by
  refine (sum_pairs (fun i c => (dOne P T n i c + dTwo P T n i c) * halfW)).trans ?_
  unfold rowSum
  rw [half_mul_sum]
  refine Finset.sum_congr rfl fun i _ => ?_
  rw [half_mul_sum]
  exact Finset.sum_congr rfl fun c _ => mul_comm _ _

/-! ## Blocks, accumulators, and the two sums -/

/-- Grid point `t` adds half the `rowSum`s of its 128 rows. -/
theorem bp_eq (P T : Arr) (t : Fin 64) :
    bp P T t = halfW * ∑ r : Fin 128, rowSum P T ⟨128 * t.val + r.val, by omega⟩ := by
  unfold bp blockPartial
  rw [← Finset.sum_add_distrib, ← Finset.sum_add_distrib]
  exact congrArg (fun z => halfW * z)
    (Finset.sum_congr rfl fun r _ => row_kernel P T ⟨128 * t.val + r.val, by omega⟩)

/-- The 64 grid points together add half the `rowSum` of every row. -/
theorem sum_bp (P T : Arr) : ∑ t : Fin 64, bp P T t = ∑ n : Fin 8192, halfW * rowSum P T n := by
  rw [sum_split 64 128 (by norm_num : (8192 : ℕ) = 64 * 128) (fun n => halfW * rowSum P T n)]
  refine Finset.sum_congr rfl fun t _ => ?_
  rw [bp_eq, half_mul_sum]

/-- The two accumulators together are the sum over the 64 grid points. -/
theorem sum_accOf (P T : Arr) : ∑ c : Fin 2, accOf P T c = ∑ t : Fin 64, bp P T t := by
  rw [sum_split 2 32 (by norm_num : (64 : ℕ) = 2 * 32) (bp P T)]
  rfl

theorem kernelVal_eq (P T : Arr) :
    kernelVal P T = (∑ n : Fin 8192, halfW * rowSum P T n) * ((1 / 67108864 : ℝ) : EReal) := by
  unfold kernelVal
  rw [sum_rows16 (accOf P T), sum_accOf, sum_bp, zeroW_eq, oneW_eq, w1024_eq, w2p26_eq, zero_add, one_mul,
    Ideal.div_coe (y := 1024) (by norm_num), Ideal.div_coe (y := 67108864) (by norm_num), mul_cancel_1024]

theorem refVal_eq (P T : Arr) :
    refVal P T = (∑ n : Fin 8192, halfW * rowSum P T n) * ((1 / 67108864 : ℝ) : EReal) := by
  unfold refVal
  rw [Finset.sum_congr rfl fun n _ => row_ref P T n, zeroW_eq, oneW_eq, w2p20_eq, w64_eq, zero_add, one_mul,
    Ideal.div_coe (y := 1048576) (by norm_num), Ideal.div_coe (y := 64) (by norm_num), scale_merge]

/-- The kernel's formula and the reference's are equal, whatever the arrays hold. -/
theorem kernelVal_eq_refVal (P T : Arr) : kernelVal P T = refVal P T := by
  rw [kernelVal_eq, refVal_eq]

end Cert.L1Order

end
-- ==== Proof.lean ====
/-
  The certificate of the L1 order loss kernel against its reference.

  Both programs take two arrays of 8192 rows, each row 64 points of two coordinates.  For every
  row and coordinate the loss adds, over the points of the first array, the least distance to a
  point of the second, and over the points of the second, the least distance to a point of the
  first; the total is halved and averaged.  The reference does this with one four-axis array of
  all distances; the kernel regroups the rows by coordinate, walks 64 blocks of 128 rows on a
  2 × 32 grid keeping one running sum per half of the grid, and lets the host add the two sums.

  The two results are the same extended real for ANY contents of the arrays (`kernelVal_eq_refVal`):
  the sums differ only in grouping and order, and the factor ½ — a nonnegative real — may be
  taken out of a sum of arbitrary extended reals.  The kernel's result is `kernelVal`
  (`kernel_run`: the running sums by induction on the grid point, the two written blocks tiling
  the result array, the host's closing operations), the reference's is `refVal` (`ref_value`).
  The three frames are the generated ones; the idealization rewrote no operation.
-/
import proofs.«428503_j64733747085527_3_alg».proof.Defs
import proofs.«428503_j64733747085527_3_alg».proof.Proof.Gen.Kernel
import proofs.«428503_j64733747085527_3_alg».proof.Proof.Gen.Kernel.Skeleton
import proofs.«428503_j64733747085527_3_alg».proof.Proof.Gen.Kernel.Launch
import proofs.«428503_j64733747085527_3_alg».proof.Proof.Gen.Kernel.Points
import proofs.«428503_j64733747085527_3_alg».proof.Proof.Gen.Kernel.Frame
import proofs.«428503_j64733747085527_3_alg».proof.Proof.Gen.KernelIdeal
import proofs.«428503_j64733747085527_3_alg».proof.Proof.Gen.KernelIdeal.Skeleton
import proofs.«428503_j64733747085527_3_alg».proof.Proof.Gen.KernelIdeal.Launch
import proofs.«428503_j64733747085527_3_alg».proof.Proof.Gen.KernelIdeal.Points
import proofs.«428503_j64733747085527_3_alg».proof.Proof.Gen.KernelIdeal.Frame
import proofs.«428503_j64733747085527_3_alg».proof.Proof.Gen.ReferenceIdeal
import proofs.«428503_j64733747085527_3_alg».proof.Proof.Gen.ReferenceIdeal.Run
import proofs.«428503_j64733747085527_3_alg».proof.Proof.Gen.ReferenceIdeal.Read
import proofs.«428503_j64733747085527_3_alg».proof.Proof.Gen.Pre_finite_inputs
import proofs.«428503_j64733747085527_3_alg».proof.Proof.KernelValue
import proofs.«428503_j64733747085527_3_alg».proof.Proof.Reference
import proofs.«428503_j64733747085527_3_alg».proof.Proof.Algebra
import Idealize.ShloMosaic.Adequacy
import Idealize.ShloMosaic.Init

noncomputable section

namespace Cert.Proof

open Idealize.ShloMosaic Idealize.SL.Sem Cert.L1Order

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the two arrays, the kernel ends at `kernelVal` and the reference at
    `refVal` of the same arrays: one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  funext i
  rw [ref_value, ← kernelVal_eq_refVal, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
